-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S20x2048 : Shape := ⟨2, ![20, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S20x2048 : S_.BroadcastsInDim S20x2048 (![] : Fin 0 → Fin S20x2048.rank)
  reducesTo_S20x2048_S_d0_1 : S20x2048.ReducesTo [0, 1] S_

variable [Facts]

def fn {F : FTy → Type} [FloatOps F] (main_arg0 : FVec F S32768x2048 .f32) (main_arg1 : FVec F S20x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S20x2048 .f32 := Host.absf main_arg1
  let main_cst_0 : FVec F S_ .f32 := constant S_ .f32 0x7F800000#32
  let main_v5 : FVec F S20x2048 .f32 := broadcastInDim S20x2048 ![] bcast_S_S20x2048 main_cst_0
  let main_v6 : IVec S20x2048 1 := cmpf .olt main_v4 main_v5
  let main_c_1 : IVec S_ 1 := constantI S_ 1 1#1
  let main_v7 : IVec S_ 1 := (fun x v => Host.reduce IntOp.andi x v reducesTo_S20x2048_S_d0_1 h_S_) main_v6 main_c_1
  let main_v8 : IVec S_ 1 := andi main_v3 main_v7
  main_v8
-- ==== Kernel.lean ====
abbrev S32768x2048 : Shape := ⟨2, ![32768, 2048]⟩
abbrev S20x2048 : Shape := ⟨2, ![20, 2048]⟩
abbrev S512x2048 : Shape := ⟨2, ![512, 2048]⟩
abbrev S512x20 : Shape := ⟨2, ![512, 20]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S20x2048, .f32⟩
  | .hbm, ⟨2, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S20x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S20x2048_S20x2048_0_0 : ∀ a, (![0, 0] : Fin 2 → Nat) a + S20x2048.size a ≤ S20x2048.size a
  h_S20x2048 : 0 < S20x2048.numel
  bitsLt_bf16_f32 : FTy.bits .bf16 < FTy.bits .f32
  reduces_S512x20_S512 : S512x20.Reduces [1] S512
  shapeCasts_S512_S512x1 : S512.ShapeCasts S512x1
  broadcasts_S512x1_S512x20 : S512x1.Broadcasts S512x20
  dot_S512x2048_S20x2048_S512x20_1_1_0_0_n_n_wf : DotDims.WF S512x2048 S20x2048 S512x20 [1] [1] [0] [0] [] []
  dot_S512x20_S20x2048_S512x2048_1_0_0_1_n_n_wf : DotDims.WF S512x20 S20x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x2048.size a ≤ S20x2048.size a
  hwx0_1 : ∀ i : grid0.Coords, EltTy.bits .f32 = 32 ∨ (Rect.block (s := S20x2048) S20x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

def dot_S512x2048_S20x2048_S512x20_1_1_0_0_n_n : DotDims S512x2048 S20x2048 S512x20 where
  lhsContracting := [1]
  rhsContracting := [1]
  lhsNonContracting := [0]
  rhsNonContracting := [0]
  lhsBatch := []
  rhsBatch := []
  wf := dot_S512x2048_S20x2048_S512x20_1_1_0_0_n_n_wf
def dot_S512x20_S20x2048_S512x2048_1_0_0_1_n_n : DotDims S512x20 S20x2048 S512x2048 where
  lhsContracting := [1]
  rhsContracting := [0]
  lhsNonContracting := [0]
  rhsNonContracting := [1]
  lhsBatch := []
  rhsBatch := []
  wf := dot_S512x20_S20x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S20x2048 : Shape := ⟨2, ![20, 2048]⟩
abbrev S2048x20 : Shape := ⟨2, ![2048, 20]⟩
abbrev S32768x20 : Shape := ⟨2, ![32768, 20]⟩
abbrev S_ : Shape := ⟨0, ![]⟩
abbrev S32768 : Shape := ⟨1, ![32768]⟩
abbrev S32768x1 : Shape := ⟨2, ![32768, 1]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S20x2048, .f32⟩
  | .hbm, ⟨2, _⟩ => ⟨S2048x20, .f32⟩
  | .hbm, ⟨3, _⟩ => ⟨S32768x20, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x20, .f32⟩
  | .hbm, ⟨11, _⟩ => ⟨S32768x20, .f32⟩
  | .hbm, ⟨12, _⟩ => ⟨S32768x20, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x20, .f32⟩
  | .hbm, ⟨17, _⟩ => ⟨S32768x20, .f32⟩
  | .hbm, ⟨18, _⟩ => ⟨S_, .f32⟩
  | .hbm, ⟨19, _⟩ => ⟨S32768x20, .f32⟩
  | .hbm, ⟨20, _⟩ => ⟨S32768x20, .i1⟩
  | .hbm, ⟨21, _⟩ => ⟨S_, .f32⟩
  | .hbm, ⟨22, _⟩ => ⟨S32768x20, .f32⟩
  | .hbm, ⟨23, _⟩ => ⟨S32768x20, .f32⟩
  | .hbm, ⟨24, _⟩ => ⟨S_, .f32⟩
  | .hbm, ⟨25, _⟩ => ⟨S32768x20, .f32⟩
  | .hbm, ⟨26, _⟩ => ⟨S32768x20, .i1⟩
  | .hbm, ⟨27, _⟩ => ⟨S_, .f32⟩
  | .hbm, ⟨28, _⟩ => ⟨S32768x20, .f32⟩
  | .hbm, ⟨29, _⟩ => ⟨S32768x20, .f32⟩
  | .hbm, ⟨30, _⟩ => ⟨S_, .f32⟩
  | .hbm, ⟨31, _⟩ => ⟨S32768x20, .f32⟩
  | .hbm, ⟨32, _⟩ => ⟨S32768x20, .f32⟩
  | .hbm, ⟨33, _⟩ => ⟨S32768x20, .f32⟩
  | .hbm, ⟨34, _⟩ => ⟨S_, .f32⟩
  | .hbm, ⟨35, _⟩ => ⟨S32768, .f32⟩
  | .hbm, ⟨36, _⟩ => ⟨S_, .f32⟩
  | .hbm, ⟨37, _⟩ => ⟨S32768, .f32⟩
  | .hbm, ⟨38, _⟩ => ⟨S32768, .f32⟩
  | .hbm, ⟨39, _⟩ => ⟨S32768x1, .f32⟩
  | .hbm, ⟨40, _⟩ => ⟨S32768x20, .f32⟩
  | .hbm, ⟨41, _⟩ => ⟨S32768x20, .f32⟩
  | .hbm, ⟨42, _⟩ => ⟨S32768x20, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S32768x20, .f32⟩
  | .hbm, ⟨47, _⟩ => ⟨S32768x20, .f32⟩
  | .hbm, ⟨48, _⟩ => ⟨S32768x2048, .f32⟩
  | .hbm, ⟨49, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  transposes_S20x2048_S2048x20_1_0 : S20x2048.Transposes [1, 0] S2048x20
  reducesTo_S32768x20_S32768_d1 : S32768x20.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x20_0_1 : S32768x1.BroadcastsInDim S32768x20 (![0, 1] : Fin 2 → Fin S32768x20.rank)
  bcast_S_S32768x20 : S_.BroadcastsInDim S32768x20 (![] : Fin 0 → Fin S32768x20.rank)
  dot_S32768x2048_S2048x20_S32768x20_1_0_0_1_n_n_wf : DotDims.WF S32768x2048 S2048x20 S32768x20 [1] [0] [0] [1] [] []
  dot_S32768x20_S20x2048_S32768x2048_1_0_0_1_n_n_wf : DotDims.WF S32768x20 S20x2048 S32768x2048 [1] [0] [0] [1] [] []

variable [Facts₀]

def dot_S32768x2048_S2048x20_S32768x20_1_0_0_1_n_n : DotDims S32768x2048 S2048x20 S32768x20 where
  lhsContracting := [1]
  rhsContracting := [0]
  lhsNonContracting := [0]
  rhsNonContracting := [1]
  lhsBatch := []
  rhsBatch := []
  wf := dot_S32768x2048_S2048x20_S32768x20_1_0_0_1_n_n_wf
def dot_S32768x20_S20x2048_S32768x2048_1_0_0_1_n_n : DotDims S32768x20 S20x2048 S32768x2048 where
  lhsContracting := [1]
  rhsContracting := [0]
  lhsNonContracting := [0]
  rhsNonContracting := [1]
  lhsBatch := []
  rhsBatch := []
  wf := dot_S32768x20_S20x2048_S32768x2048_1_0_0_1_n_n_wf

class Facts : Prop extends Facts₀ where

variable [Facts]
-- ==== Proof.Spec.lean ====
/-
  The memory unit, one row at a time, on the extended reals.

  A row of features `xr : Fin 2048 → EReal` is scored against each of the twenty memory slots
  (`logit`: the inner product with that slot's row of the bank). The twenty scores are made into
  weights by a softmax (`softmax`: subtract the greatest score, exponentiate, divide by the sum of
  the exponentials), each weight is soft-shrunk by the threshold `lam` (`shrink`: weights above
  `lam` lose `lam`, weights below `-lam` gain it, the rest become zero), and the shrunk weights go
  through the softmax once more (`weights`). The row's result at feature `d` is the hyperbolic tangent
  of the weighted sum of the slots' entries at `d` (`rowOut`). The whole array is that, row by row
  (`out`).

  The greatest score is taken as both programs take it: a fold of `max` from the word of −∞, and
  then once more the larger of −∞ and that fold (`top`). The threshold, its negative and zero are
  kept as the binary words the programs carry; nothing here evaluates them.
-/
import Idealize.ShloMosaic.PureOps.Ideal
import Idealize.ShloMosaic.PureOps.Ideal.Laws
import Idealize.ShloMosaic.Lib.ValueIdx

noncomputable section

namespace Cert.MemoryUnit

open Idealize.ShloMosaic Idealize.ShloMosaic.ValueIdx

/-- The bank: twenty slots of 2048 features. -/
abbrev Bank : Type := (⟨2, ![20, 2048]⟩ : Shape).Idx → EReal

/-- The input: 32768 rows of 2048 features; the result has the same shape. -/
abbrev Rows : Type := (⟨2, ![32768, 2048]⟩ : Shape).Idx → EReal

/-- The word of −∞ every maximum starts from. -/
abbrev negInf : EReal := Ideal.ofBits .f32 0xFF800000#32

/-- The shrink threshold, as the word both programs carry. -/
abbrev lam : EReal := Ideal.ofBits .f32 0x3B23D70A#32

/-- Its negative, as the word both programs carry. -/
abbrev negLam : EReal := Ideal.ofBits .f32 0xBB23D70A#32

/-- The zero word the shrink leaves in the dead zone. -/
abbrev zeroWord : EReal := Ideal.ofBits .f32 0x00000000#32

/-- The greatest of twenty scores: the fold of `max` from −∞, and the larger of −∞ and that. -/
def top (f : Fin 20 → EReal) : EReal :=
  max negInf ((Finset.univ : Finset (Fin 20)).fold max negInf f)

/-- The softmax of twenty scores at slot `j`. -/
def softmax (f : Fin 20 → EReal) (j : Fin 20) : EReal :=
  Ideal.div (Ideal.exp (f j - top f)) (∑ l : Fin 20, Ideal.exp (f l - top f))

/-- The soft shrink of one weight by the threshold. -/
def shrink (a : EReal) : EReal :=
  Scalar.select (Ideal.cmp .ogt a lam) (a - lam)
    (Scalar.select (Ideal.cmp .olt a negLam) (a + lam) zeroWord)

/-- The score of a row against slot `j`: their inner product over the 2048 features. -/
def logit (xr : Fin 2048 → EReal) (bank : Bank) (j : Fin 20) : EReal :=
  ∑ k : Fin 2048, xr k * bank (ix2 j k)

/-- The row's final weights: softmax, shrink, softmax again. -/
def weights (xr : Fin 2048 → EReal) (bank : Bank) : Fin 20 → EReal :=
  softmax fun j => shrink (softmax (logit xr bank) j)

/-- The row's result at feature `d`. -/
def rowOut (xr : Fin 2048 → EReal) (bank : Bank) (d : Fin 2048) : EReal :=
  Ideal.tanh (∑ j : Fin 20, weights xr bank j * bank (ix2 j d))

/-- The whole result: every row treated by itself. -/
def out (x : Rows) (bank : Bank) : Rows :=
  fun i => rowOut (fun k => x (ix2 (i 0) k)) bank (i 1)

end Cert.MemoryUnit

end
-- ==== Proof.RefIsSpec.lean ====
/-
  The reference computes the memory unit's row function.

  Read one operation at a time, the reference's value at row `r` is built from that row of the input
  alone: its twenty scores are the inner products with the bank's rows (the transposed bank read
  back at its own indices), the greatest score is the fold of `max` over the twenty from −∞, the
  exponentials are summed from a zero that adds nothing, and so on through the shrink and the second
  softmax to the weighted sum of the bank's columns. Each stage below is stated at explicit
  coordinates `(r, j)` or `(r, d)` and equals the corresponding stage of `Cert.MemoryUnit`.
-/
import proofs.«129521_j57990648430879_1_alg».proof.Proof.Gen.ReferenceIdeal.Read
import proofs.«129521_j57990648430879_1_alg».proof.Proof.Spec

noncomputable section

namespace Cert.ReferenceIdeal.RefValue

open Cert.ReferenceIdeal Cert.ReferenceIdeal.Gen Cert.ReferenceIdeal.Read Idealize.ShloMosaic
open Idealize.ShloMosaic.ValueIdx Cert.MemoryUnit

variable (x : Rows) (bank : Bank)

/-- Row `r` of the input. -/
abbrev rowOf (r : Fin 32768) : Fin 2048 → EReal := fun k => x (ix2 r k)

/-- Inserting slot `k` into row `r` of a `[32768, 20]` array names the entry `(r, k)`. -/
theorem lift_row (h : S32768x20.Reduces [1] S32768) (r : Fin 32768) (k : Fin 20) :
    h.lift (ix1 r) k = ix2 r k :=
  funext fun a => Fin.ext (by match a with | ⟨0, _⟩ => rfl | ⟨1, _⟩ => rfl)

/-- The scores: the product with the transposed bank is the inner product with the bank's row. -/
theorem logits_at (r : Fin 32768) (j : Fin 20) :
    val_main_v1 (F := Ideal) x bank (ix2 r j) = logit (rowOf x r) bank j := by
  rw [val_main_v1_apply]
  unfold logit
  refine Finset.sum_congr rfl fun k _ => ?_
  rw [val_main_v0_apply]
  exact congrArg₂ (· * ·)
    (congrArg x (funext fun a => Fin.ext (by match a with | ⟨0, _⟩ => rfl | ⟨1, _⟩ => rfl)))
    (congrArg bank (funext fun a => Fin.ext (by match a with | ⟨0, _⟩ => rfl | ⟨1, _⟩ => rfl)))

/-- The greatest score of row `r`. -/
theorem max1_at (r : Fin 32768) :
    val_main_v4 (F := Ideal) x bank (ix1 r) = top (logit (rowOf x r) bank) := by
  rw [val_main_v4_apply, val_main_v3_apply, val_main_cst_0_apply]
  unfold val_main_v2
  rw [Host.reduce_eq_fold_single FloatOps.maximumf _ _ reducesTo_S32768x20_S32768_d1 (by decide) h_S_ (ix1 r)]
  unfold top
  refine congrArg (max negInf) ?_
  refine congrArg (fun f => Finset.fold max negInf f (Finset.univ : Finset (Fin 20))) ?_
  funext k
  rw [Function.comp_apply]
  exact (congrArg (val_main_v1 (F := Ideal) x bank) (lift_row _ r k)).trans (logits_at x bank r k)

/-- The exponential of a score less the greatest. -/
theorem exp1_at (r : Fin 32768) (j : Fin 20) :
    val_main_v8 (F := Ideal) x bank (ix2 r j)
      = Ideal.exp (logit (rowOf x r) bank j - top (logit (rowOf x r) bank)) := by
  have e : idx_main_v5 (idx_main_v6 (ix2 r j)) = ix1 r :=
    funext fun a => Fin.ext (by match a with | ⟨0, _⟩ => rfl)
  rw [val_main_v8_apply, val_main_v7_apply, val_main_v6_apply, val_main_v5_apply, logits_at, e, max1_at]
  rfl

/-- The sum of row `r`'s exponentials: the zero it starts from adds nothing. -/
theorem sum1_at (r : Fin 32768) :
    val_main_v9 (F := Ideal) x bank (ix1 r)
      = ∑ l : Fin 20, Ideal.exp (logit (rowOf x r) bank l - top (logit (rowOf x r) bank)) := by
  rw [val_main_v9_apply, val_main_cst_1_apply]
  show Ideal.ofBits .f32 0x00000000#32 + _ = _
  rw [Ideal.ofBits_zero_f32, zero_add]
  refine Finset.sum_congr rfl fun k _ => ?_
  have e : idx_main_v9 (ix1 r) k = ix2 r k :=
    funext fun a => Fin.ext (by match a with | ⟨0, _⟩ => rfl | ⟨1, _⟩ => rfl)
  rw [e, exp1_at]

/-- The first softmax. -/
theorem soft1_at (r : Fin 32768) (j : Fin 20) :
    val_main_v12 (F := Ideal) x bank (ix2 r j) = softmax (logit (rowOf x r) bank) j := by
  have e : idx_main_v10 (idx_main_v11 (ix2 r j)) = ix1 r :=
    funext fun a => Fin.ext (by match a with | ⟨0, _⟩ => rfl)
  rw [val_main_v12_apply, val_main_v11_apply, val_main_v10_apply, exp1_at, e, sum1_at]
  rfl

/-- The shrunk weight. -/
theorem shrunk_at (r : Fin 32768) (j : Fin 20) :
    val_main_v22 (F := Ideal) x bank (ix2 r j) = shrink (softmax (logit (rowOf x r) bank) j) := by
  rw [val_main_v22_apply, val_main_v14_apply, val_main_v16_apply, val_main_v21_apply, val_main_v18_apply,
    val_main_v20_apply, val_main_v13_apply, val_main_v15_apply, val_main_v17_apply, val_main_v19_apply,
    val_main_call0_v0_apply, val_main_cst_2_apply, val_main_cst_3_apply, val_main_cst_4_apply,
    val_main_cst_5_apply, val_main_cst_6_apply, soft1_at]
  rfl

/-- The shrunk weights of row `r`. -/
abbrev shrunkRow (r : Fin 32768) : Fin 20 → EReal := fun j => shrink (softmax (logit (rowOf x r) bank) j)

/-- The greatest shrunk weight of row `r`. -/
theorem max2_at (r : Fin 32768) :
    val_main_v25 (F := Ideal) x bank (ix1 r) = top (shrunkRow x bank r) := by
  rw [val_main_v25_apply, val_main_v24_apply, val_main_cst_8_apply]
  unfold val_main_v23
  rw [Host.reduce_eq_fold_single FloatOps.maximumf _ _ reducesTo_S32768x20_S32768_d1 (by decide) h_S_ (ix1 r)]
  unfold top
  refine congrArg (max negInf) ?_
  refine congrArg (fun f => Finset.fold max negInf f (Finset.univ : Finset (Fin 20))) ?_
  funext k
  rw [Function.comp_apply]
  exact (congrArg (val_main_v22 (F := Ideal) x bank) (lift_row _ r k)).trans (shrunk_at x bank r k)

theorem exp2_at (r : Fin 32768) (j : Fin 20) :
    val_main_v29 (F := Ideal) x bank (ix2 r j)
      = Ideal.exp (shrunkRow x bank r j - top (shrunkRow x bank r)) := by
  have e : idx_main_v26 (idx_main_v27 (ix2 r j)) = ix1 r :=
    funext fun a => Fin.ext (by match a with | ⟨0, _⟩ => rfl)
  rw [val_main_v29_apply, val_main_v28_apply, val_main_v27_apply, val_main_v26_apply, shrunk_at, e, max2_at]
  rfl

theorem sum2_at (r : Fin 32768) :
    val_main_v30 (F := Ideal) x bank (ix1 r)
      = ∑ l : Fin 20, Ideal.exp (shrunkRow x bank r l - top (shrunkRow x bank r)) := by
  rw [val_main_v30_apply, val_main_cst_9_apply]
  show Ideal.ofBits .f32 0x00000000#32 + _ = _
  rw [Ideal.ofBits_zero_f32, zero_add]
  refine Finset.sum_congr rfl fun k _ => ?_
  have e : idx_main_v30 (ix1 r) k = ix2 r k :=
    funext fun a => Fin.ext (by match a with | ⟨0, _⟩ => rfl | ⟨1, _⟩ => rfl)
  rw [e, exp2_at]

/-- The final weights. -/
theorem soft2_at (r : Fin 32768) (j : Fin 20) :
    val_main_v33 (F := Ideal) x bank (ix2 r j) = weights (rowOf x r) bank j := by
  have e : idx_main_v31 (idx_main_v32 (ix2 r j)) = ix1 r :=
    funext fun a => Fin.ext (by match a with | ⟨0, _⟩ => rfl)
  rw [val_main_v33_apply, val_main_v32_apply, val_main_v31_apply, exp2_at, e, sum2_at]
  rfl

/-- The result at `(r, d)`: the weighted sum of the bank's column `d`, through the hyperbolic tangent. -/
theorem result_at (r : Fin 32768) (d : Fin 2048) :
    val_main_v35 (F := Ideal) x bank (ix2 r d) = rowOut (rowOf x r) bank d := by
  rw [val_main_v35_apply, val_main_v34_apply, Ideal.hostUnary_tanh_def]
  unfold rowOut
  refine congrArg Ideal.tanh (Finset.sum_congr rfl fun k _ => ?_)
  have el : lidx_main_v34 (ix2 r d) k = ix2 r k :=
    funext fun a => Fin.ext (by match a with | ⟨0, _⟩ => rfl | ⟨1, _⟩ => rfl)
  have er : ridx_main_v34 (ix2 r d) k = ix2 k d :=
    funext fun a => Fin.ext (by match a with | ⟨0, _⟩ => rfl | ⟨1, _⟩ => rfl)
  rw [el, er, soft2_at]

/-- The reference's last stage is the memory unit's result, as whole arrays. -/
theorem result_eq : val_main_v35 (F := Ideal) x bank = out x bank := by
  funext i
  obtain ⟨r, d, rfl⟩ : ∃ (r : Fin 32768) (d : Fin 2048), i = ix2 r d := ⟨i 0, i 1, eq_ix2 i⟩
  exact result_at x bank r d

end Cert.ReferenceIdeal.RefValue

end
-- ==== Proof.BodyIsSpec.lean ====
/-
  One block of the kernel computes the memory unit's row function on each of its 512 rows.

  The body's arithmetic is a composition of block-sized stages: the scores of the 512 rows against
  the twenty slots (a product that contracts the feature axis of both operands, into a zero
  accumulator), a softmax along the slots (row maximum, exponentials, row sum, quotient, the two row
  vectors spread back over the slots), the soft shrink entry by entry, the softmax again, and the
  product of the weights with the bank, through the hyperbolic tangent. Narrowing to sixteen bits
  changes nothing on the extended reals. Read at row `p`, every stage depends on that row alone and
  is the corresponding stage of `Cert.MemoryUnit` applied to row `p` of the loaded block.
-/
import proofs.«129521_j57990648430879_1_alg».proof.Proof.Gen.KernelIdeal.Skeleton
import proofs.«129521_j57990648430879_1_alg».proof.Proof.Spec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.MemoryUnit

/-! ## The layout steps -/

/-- Inserting slot `k` into row `p` of a `[512, 20]` block names the entry `(p, k)`. -/
theorem lift_blockRow (h : S512x20.Reduces [1] S512) (p : Fin 512) (k : Fin 20) :
    h.lift (ix1 p) k = ix2 p k :=
  funext fun a => Fin.ext (by match a with | ⟨0, _⟩ => rfl | ⟨1, _⟩ => rfl)

/-- A vector of per-row values made a column and spread over the twenty slots: entry `(p, j)` is row `p`'s value. -/
theorem spread_apply {α : Type} (v : S512.Idx → α) (hc : S512.ShapeCasts S512x1) (hb : S512x1.Broadcasts S512x20)
    (p : Fin 512) (j : Fin 20) :
    broadcastTo S512x20 (shapeCast S512x1 v hc) hb (ix2 p j) = v (ix1 p) := by
  refine (broadcastTo_apply (shapeCast S512x1 v hc) hb (ix2 p j) (ix2 p (0 : Fin 1)) ?_).trans
    (shapeCast_apply v hc (ix2 p (0 : Fin 1)) (ix1 p) ?_)
  · intro a
    match a with
    | ⟨0, _⟩ => rfl
    | ⟨1, _⟩ => rfl
  · rw [Shape.rowMajor_val_one, Shape.rowMajor_val_two]
    show p.val = p.val * 1 + 0
    omega

/-! ## The stages of the body, block-sized -/

/-- The greatest score of each row, from −∞ and once more against −∞. -/
def rowTop (L : FVec Ideal S512x20 .f32) : FVec Ideal S512 .f32 :=
  maximumf (broadcast S512 (Scalar.ofBits .f32 0xFF800000#32))
    (multiReduction .maximumf [1] S512 L 0xFF800000#32 reduces_S512x20_S512 (.inl rfl) rfl)

/-- A per-row vector spread over the slots. -/
def spread (v : FVec Ideal S512 .f32) : FVec Ideal S512x20 .f32 :=
  broadcastTo S512x20 (shapeCast S512x1 v shapeCasts_S512_S512x1) broadcasts_S512x1_S512x20

/-- The exponentials of the scores less their row's greatest. -/
def blockExp (L : FVec Ideal S512x20 .f32) : FVec Ideal S512x20 .f32 :=
  exp (subf L (spread (rowTop L)))

/-- The softmax along the slots. -/
def blockSoftmax (L : FVec Ideal S512x20 .f32) : FVec Ideal S512x20 .f32 :=
  divf (blockExp L)
    (spread (multiReduction .add [1] S512 (blockExp L) 0x00000000#32 reduces_S512x20_S512 (.inl rfl) rfl))

/-- The soft shrink, entry by entry. -/
def blockShrink (A : FVec Ideal S512x20 .f32) : FVec Ideal S512x20 .f32 :=
  select (cmpf .ogt A (broadcast S512x20 (Scalar.ofBits .f32 0x3B23D70A#32)))
    (subf A (broadcast S512x20 (Scalar.ofBits .f32 0x3B23D70A#32)))
    (select (cmpf .olt A (broadcast S512x20 (Scalar.ofBits .f32 0xBB23D70A#32)))
      (addf A (broadcast S512x20 (Scalar.ofBits .f32 0x3B23D70A#32)))
      (broadcast S512x20 (Scalar.ofBits .f32 0x00000000#32)))

/-- The scores of the block's rows against the slots. -/
def blockScores (v0 : Vec Ideal S512x2048 .f32) (v1 : Vec Ideal S20x2048 .f32) : FVec Ideal S512x20 .f32 :=
  matmul dot_S512x2048_S20x2048_S512x20_1_1_0_0_n_n none (truncf .bf16 v0 bitsLt_bf16_f32) (truncf .bf16 v1 bitsLt_bf16_f32)
    (constant S512x20 .f32 0x00000000#32)

/-- The weights times the bank. -/
def blockMix (W : FVec Ideal S512x20 .f32) (v1 : Vec Ideal S20x2048 .f32) : FVec Ideal S512x2048 .f32 :=
  matmul dot_S512x20_S20x2048_S512x2048_1_0_0_1_n_n none (truncf .bf16 W bitsLt_bf16_f32) (truncf .bf16 v1 bitsLt_bf16_f32)
    (constant S512x2048 .f32 0x00000000#32)

/-- The body's arithmetic is these stages, composed. -/
theorem payload_eq (v0 : Vec Ideal S512x2048 .f32) (v1 : Vec Ideal S20x2048 .f32) :
    k0_pay1 (F := Ideal) v0 v1
      = tanh (blockMix (blockSoftmax (blockShrink (blockSoftmax (blockScores v0 v1)))) v1) := rfl

/-! ## Each stage at a row -/

theorem rowTop_at (L : FVec Ideal S512x20 .f32) (p : Fin 512) :
    rowTop L (ix1 p) = top fun j => L (ix2 p j) := by
  unfold rowTop top
  rw [maximumf_apply, broadcast_apply]
  refine congrArg (max negInf) ?_
  refine (Ideal.multiReduction_maximumf_single L _ reduces_S512x20_S512 _ _ (ix1 p)).trans ?_
  refine congrArg (fun f => Finset.fold max negInf f (Finset.univ : Finset (Fin 20))) ?_
  funext k
  rw [Function.comp_apply]
  exact congrArg L (lift_blockRow _ p k)

theorem spread_at (v : FVec Ideal S512 .f32) (p : Fin 512) (j : Fin 20) : spread v (ix2 p j) = v (ix1 p) :=
  spread_apply v _ _ p j

theorem blockExp_at (L : FVec Ideal S512x20 .f32) (p : Fin 512) (j : Fin 20) :
    blockExp L (ix2 p j) = Ideal.exp (L (ix2 p j) - top fun l => L (ix2 p l)) := by
  show Ideal.exp (L (ix2 p j) - spread (rowTop L) (ix2 p j)) = _
  rw [spread_at, rowTop_at]

theorem blockSoftmax_at (L : FVec Ideal S512x20 .f32) (p : Fin 512) (j : Fin 20) :
    blockSoftmax L (ix2 p j) = softmax (fun l => L (ix2 p l)) j := by
  unfold blockSoftmax softmax
  rw [divf_apply, spread_at, blockExp_at]
  refine congrArg (Ideal.div _) ?_
  refine (Ideal.multiReduction_add_single (blockExp L) _ reduces_S512x20_S512 _ _ (ix1 p)).trans ?_
  refine Finset.sum_congr rfl fun k _ => ?_
  exact (congrArg (blockExp L) (lift_blockRow _ p k)).trans (blockExp_at L p k)

theorem blockShrink_at (A : FVec Ideal S512x20 .f32) (i : S512x20.Idx) : blockShrink A i = shrink (A i) := rfl

/-! ## The two products at an index -/

theorem scores_lhs_0 (i : S512x20.Idx) (q : dot_S512x2048_S20x2048_S512x20_1_1_0_0_n_n.contr.Idx) :
    (dot_S512x2048_S20x2048_S512x20_1_1_0_0_n_n.lhsIdx i q 0).val = (i 0).val := by
  unfold DotDims.lhsIdx
  rw [dif_neg (show ¬(0 : Fin S512x2048.rank) ∈ dot_S512x2048_S20x2048_S512x20_1_1_0_0_n_n.lhsBatch by decide), dif_pos (show (0 : Fin S512x2048.rank) ∈ dot_S512x2048_S20x2048_S512x20_1_1_0_0_n_n.lhsNonContracting by decide)]
  rfl
theorem scores_lhs_1 (i : S512x20.Idx) (q : dot_S512x2048_S20x2048_S512x20_1_1_0_0_n_n.contr.Idx) :
    (dot_S512x2048_S20x2048_S512x20_1_1_0_0_n_n.lhsIdx i q 1).val = (q ⟨0, by decide⟩).val :=
  dot_S512x2048_S20x2048_S512x20_1_1_0_0_n_n.lhsIdx_val_of_single rfl i q
theorem scores_rhs_0 (i : S512x20.Idx) (q : dot_S512x2048_S20x2048_S512x20_1_1_0_0_n_n.contr.Idx) :
    (dot_S512x2048_S20x2048_S512x20_1_1_0_0_n_n.rhsIdx i q 0).val = (i 1).val := by
  unfold DotDims.rhsIdx
  rw [dif_neg (show ¬(0 : Fin S20x2048.rank) ∈ dot_S512x2048_S20x2048_S512x20_1_1_0_0_n_n.rhsBatch by decide), dif_pos (show (0 : Fin S20x2048.rank) ∈ dot_S512x2048_S20x2048_S512x20_1_1_0_0_n_n.rhsNonContracting by decide)]
  rfl
theorem scores_rhs_1 (i : S512x20.Idx) (q : dot_S512x2048_S20x2048_S512x20_1_1_0_0_n_n.contr.Idx) :
    (dot_S512x2048_S20x2048_S512x20_1_1_0_0_n_n.rhsIdx i q 1).val = (q ⟨0, by decide⟩).val :=
  dot_S512x2048_S20x2048_S512x20_1_1_0_0_n_n.rhsIdx_val_of_single rfl i q

/-- The score of row `p` against slot `j`: the inner product of the row with the slot's row of the bank. -/
theorem blockScores_at (v0 : Vec Ideal S512x2048 .f32) (v1 : Vec Ideal S20x2048 .f32) (p : Fin 512) (j : Fin 20) :
    blockScores v0 v1 (ix2 p j) = logit (fun k => v0 (ix2 p k)) v1 j := by
  unfold blockScores logit
  simp only [matmul]
  rw [Ideal.matmul_constant_zero_apply, ← Equiv.sum_comp (contrEquiv1 dot_S512x2048_S20x2048_S512x20_1_1_0_0_n_n 2048 rfl rfl).symm]
  refine Finset.sum_congr rfl fun k _ => ?_
  have hk := contrEquiv1_symm_val dot_S512x2048_S20x2048_S512x20_1_1_0_0_n_n 2048 rfl rfl k
  have el : dot_S512x2048_S20x2048_S512x20_1_1_0_0_n_n.lhsIdx (ix2 p j) ((contrEquiv1 dot_S512x2048_S20x2048_S512x20_1_1_0_0_n_n 2048 rfl rfl).symm k) = ix2 p k := funext fun a => Fin.ext (by
    match a with
    | ⟨0, _⟩ => exact scores_lhs_0 _ _
    | ⟨1, _⟩ => exact (scores_lhs_1 _ _).trans hk)
  have er : dot_S512x2048_S20x2048_S512x20_1_1_0_0_n_n.rhsIdx (ix2 p j) ((contrEquiv1 dot_S512x2048_S20x2048_S512x20_1_1_0_0_n_n 2048 rfl rfl).symm k) = ix2 j k := funext fun a => Fin.ext (by
    match a with
    | ⟨0, _⟩ => exact scores_rhs_0 _ _
    | ⟨1, _⟩ => exact (scores_rhs_1 _ _).trans hk)
  rw [el, er]
  rfl

theorem mix_lhs_0 (i : S512x2048.Idx) (q : dot_S512x20_S20x2048_S512x2048_1_0_0_1_n_n.contr.Idx) :
    (dot_S512x20_S20x2048_S512x2048_1_0_0_1_n_n.lhsIdx i q 0).val = (i 0).val := by
  unfold DotDims.lhsIdx
  rw [dif_neg (show ¬(0 : Fin S512x20.rank) ∈ dot_S512x20_S20x2048_S512x2048_1_0_0_1_n_n.lhsBatch by decide), dif_pos (show (0 : Fin S512x20.rank) ∈ dot_S512x20_S20x2048_S512x2048_1_0_0_1_n_n.lhsNonContracting by decide)]
  rfl
theorem mix_lhs_1 (i : S512x2048.Idx) (q : dot_S512x20_S20x2048_S512x2048_1_0_0_1_n_n.contr.Idx) :
    (dot_S512x20_S20x2048_S512x2048_1_0_0_1_n_n.lhsIdx i q 1).val = (q ⟨0, by decide⟩).val :=
  dot_S512x20_S20x2048_S512x2048_1_0_0_1_n_n.lhsIdx_val_of_single rfl i q
theorem mix_rhs_0 (i : S512x2048.Idx) (q : dot_S512x20_S20x2048_S512x2048_1_0_0_1_n_n.contr.Idx) :
    (dot_S512x20_S20x2048_S512x2048_1_0_0_1_n_n.rhsIdx i q 0).val = (q ⟨0, by decide⟩).val :=
  dot_S512x20_S20x2048_S512x2048_1_0_0_1_n_n.rhsIdx_val_of_single rfl i q
theorem mix_rhs_1 (i : S512x2048.Idx) (q : dot_S512x20_S20x2048_S512x2048_1_0_0_1_n_n.contr.Idx) :
    (dot_S512x20_S20x2048_S512x2048_1_0_0_1_n_n.rhsIdx i q 1).val = (i 1).val := by
  unfold DotDims.rhsIdx
  rw [dif_neg (show ¬(1 : Fin S20x2048.rank) ∈ dot_S512x20_S20x2048_S512x2048_1_0_0_1_n_n.rhsBatch by decide), dif_pos (show (1 : Fin S20x2048.rank) ∈ dot_S512x20_S20x2048_S512x2048_1_0_0_1_n_n.rhsNonContracting by decide)]
  rfl

/-- The weighted sum of the bank's column `d` with row `p`'s weights. -/
theorem blockMix_at (W : FVec Ideal S512x20 .f32) (v1 : Vec Ideal S20x2048 .f32) (p : Fin 512) (d : Fin 2048) :
    blockMix W v1 (ix2 p d) = ∑ j : Fin 20, W (ix2 p j) * v1 (ix2 j d) := by
  unfold blockMix
  simp only [matmul]
  rw [Ideal.matmul_constant_zero_apply, ← Equiv.sum_comp (contrEquiv1 dot_S512x20_S20x2048_S512x2048_1_0_0_1_n_n 20 rfl rfl).symm]
  refine Finset.sum_congr rfl fun k _ => ?_
  have hk := contrEquiv1_symm_val dot_S512x20_S20x2048_S512x2048_1_0_0_1_n_n 20 rfl rfl k
  have el : dot_S512x20_S20x2048_S512x2048_1_0_0_1_n_n.lhsIdx (ix2 p d) ((contrEquiv1 dot_S512x20_S20x2048_S512x2048_1_0_0_1_n_n 20 rfl rfl).symm k) = ix2 p k := funext fun a => Fin.ext (by
    match a with
    | ⟨0, _⟩ => exact mix_lhs_0 _ _
    | ⟨1, _⟩ => exact (mix_lhs_1 _ _).trans hk)
  have er : dot_S512x20_S20x2048_S512x2048_1_0_0_1_n_n.rhsIdx (ix2 p d) ((contrEquiv1 dot_S512x20_S20x2048_S512x2048_1_0_0_1_n_n 20 rfl rfl).symm k) = ix2 k d := funext fun a => Fin.ext (by
    match a with
    | ⟨0, _⟩ => exact (mix_rhs_0 _ _).trans hk
    | ⟨1, _⟩ => exact mix_rhs_1 _ _)
  rw [el, er]
  rfl

/-! ## The body at an index -/

/-- The final weights of row `p` of the block. -/
theorem blockWeights_at (v0 : Vec Ideal S512x2048 .f32) (v1 : Vec Ideal S20x2048 .f32) (p : Fin 512) (j : Fin 20) :
    blockSoftmax (blockShrink (blockSoftmax (blockScores v0 v1))) (ix2 p j)
      = weights (fun k => v0 (ix2 p k)) v1 j := by
  rw [blockSoftmax_at]
  unfold weights
  refine congrArg (fun f => softmax f j) ?_
  funext l
  rw [blockShrink_at, blockSoftmax_at]
  refine congrArg (fun f => shrink (softmax f l)) ?_
  funext l'
  exact blockScores_at v0 v1 p l'

/-- What the body leaves at `(p, d)` of its block: the memory unit's result for row `p` of the loaded block. -/
theorem payload_at (v0 : Vec Ideal S512x2048 .f32) (v1 : Vec Ideal S20x2048 .f32) (p : Fin 512) (d : Fin 2048) :
    k0_pay1 (F := Ideal) v0 v1 (ix2 p d) = rowOut (fun k => v0 (ix2 p k)) v1 d := by
  rw [payload_eq]
  show Ideal.tanh (blockMix (blockSoftmax (blockShrink (blockSoftmax (blockScores v0 v1)))) v1 (ix2 p d)) = _
  rw [blockMix_at]
  unfold rowOut
  refine congrArg Ideal.tanh (Finset.sum_congr rfl fun j _ => ?_)
  rw [blockWeights_at]

end Cert.KernelIdeal.BlockValue

end
-- ==== Proof.ArrayValue.lean ====
/-
  From the blocks to the whole array.

  Grid point `t` of the 64 is handed rows `512·t … 512·t + 511` of the input (all 2048 features) and
  the whole bank, and writes back the same rows of the result. Since the body treats each row of its
  block by itself (`payload_at`), what point `t` writes back is block `t` of the memory unit's result
  `Cert.MemoryUnit.out` of the two argument arrays. Every row lies in exactly the block of
  `row / 512`, so the 64 blocks fill the array and after the run it holds `out` everywhere.
-/
import proofs.«129521_j57990648430879_1_alg».proof.Proof.Gen.KernelIdeal.Value
import proofs.«129521_j57990648430879_1_alg».proof.Proof.BodyIsSpec

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.ValueIdx Cert.MemoryUnit
open Idealize.ShloMosaic.Pipeline (Dat)

variable (m : (ℓ : Loc nD τ sig) → Buf (Elt Ideal) ℓ) (ρ : Dev nD → PrngReg)

/-- The body loads and stores its whole blocks: every rectangle starts at the origin. -/
theorem origin : (![0, 0] : Fin 2 → Nat) = fun _ => 0 := funext fun a => by fin_cases a <;> rfl

/-- The index maps over the 64 points: the input's and the result's block at point `t` is row-block `t`
    (the one column-block), the bank's is the one block there is. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block `X0` that holds rows `512·T …` of `x`, and a block `X1` that holds the bank: the body's result
    at `y` of the block is the memory unit's result at the array index `i` that `y` names. -/
theorem payload_of_blocks (x : Rows) (bank : Bank) (X0 : Vec Ideal S512x2048 .f32) (X1 : Vec Ideal S20x2048 .f32) (T : Nat)
    (h0 : ∀ (p : Fin 512) (k : Fin 2048) (hp : T * 512 + p.val < 32768), X0 (ix2 p k) = x (ix2 ⟨T * 512 + p.val, hp⟩ k))
    (h1 : ∀ (j : Fin 20) (k : Fin 2048), X1 (ix2 j k) = bank (ix2 j k))
    (y : S512x2048.Idx) (i : S32768x2048.Idx) (hi0 : (i 0).val = T * 512 + (y 0).val) (hi1 : (i 1).val = (y 1).val) :
    k0_pay1 (F := Ideal) X0 X1 y = out x bank i := by
  obtain ⟨p, d, rfl⟩ : ∃ (p : Fin 512) (d : Fin 2048), y = ix2 p d := ⟨y 0, y 1, eq_ix2 y⟩
  obtain ⟨r, d', rfl⟩ : ∃ (r : Fin 32768) (d' : Fin 2048), i = ix2 r d' := ⟨i 0, i 1, eq_ix2 i⟩
  have hX1 : X1 = bank := funext fun z => by
    obtain ⟨j, k, rfl⟩ : ∃ (j : Fin 20) (k : Fin 2048), z = ix2 j k := ⟨z 0, z 1, eq_ix2 z⟩
    exact h1 j k
  have hr : r.val = T * 512 + p.val := hi0
  have hd : d' = d := Fin.ext hi1
  subst hd hX1
  rw [payload_at]
  show rowOut (fun k => X0 (ix2 p k)) X1 d' = rowOut (fun k => x (ix2 r k)) X1 d'
  refine congrArg (fun f => rowOut f X1 d') (funext fun k => ?_)
  have hlt : T * 512 + p.val < 32768 := by have := r.isLt; omega
  rw [h0 p k hlt]
  exact congrArg (fun a => x (ix2 a k)) (Fin.ext hr.symm)

/-- What point `t` writes back is block `t` of the memory unit's result of the argument arrays. -/
theorem flushed_eq (c : Dev nD) (t : Fin cfg0.N) :
    (dats m 0 c).flushed 2 t
      = ((cfg0.win 2).blk t).view.read (Elt Ideal) (out (V m c main_arg0) (V m c main_arg1)) := by
  rw [Cert.KernelIdeal.Value.flushed2]
  unfold out0_2
  rw [View.canon_unit_zero origin]
  simp only [View.ld_unit_zero (S := S512x2048) origin, View.ld_unit_zero (S := S20x2048) origin]
  obtain ⟨e0, e1, e2, e3, e4, e5⟩ := block_indices t
  funext y
  show k0_pay1 (F := Ideal) (iblk m c 0 t) (iblk m c 1 t) y
    = out (V m c main_arg0) (V m c main_arg1) (((cfg0.win 2).blk t).view.emb y)
  refine payload_of_blocks (V m c main_arg0) (V m c main_arg1) (iblk m c 0 t) (iblk m c 1 t) t.val ?_ ?_ y _ ?_ ?_
  · intro p k hp
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 512 + 1 * p.val = t.val * 512 + p.val; omega
    | ⟨1, _⟩ => show win0_0.index t (1 : Fin 2) * 2048 + 1 * k.val = k.val; omega
  · intro j k
    show V m c main_arg1 (((cfg0.win 1).blk t).view.emb (ix2 j k)) = V m c main_arg1 _
    refine congrArg (V m c main_arg1) (funext fun a => Fin.ext ?_)
    match a with
    | ⟨0, _⟩ => show win0_1.index t (0 : Fin 2) * 20 + 1 * j.val = j.val; omega
    | ⟨1, _⟩ => show win0_1.index t (1 : Fin 2) * 2048 + 1 * k.val = k.val; omega
  · show win0_2.index t (0 : Fin 2) * 512 + 1 * (y 0).val = t.val * 512 + (y 0).val; omega
  · show win0_2.index t (1 : Fin 2) * 2048 + 1 * (y 1).val = (y 1).val; omega

/-- An index of the array is in point `t`'s block iff each coordinate is in the block's range on its axis. -/
theorem mem_block (t : Fin cfg0.N) (i : S32768x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- Every index of the result lies in the block of its row divided by 512. -/
theorem covered (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  have hN : cfg0.N = 64 := N_0
  have ht : (i 0).val / 512 < cfg0.N := by rw [hN]; omega
  obtain ⟨e0, e1, e2, e3, e4, e5⟩ := block_indices ⟨(i 0).val / 512, ht⟩
  have e4' : win0_2.index ⟨(i 0).val / 512, ht⟩ (0 : Fin 2) = (i 0).val / 512 := e4
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    omega
  | ⟨1, _⟩ =>
    show win0_2.index ⟨(i 0).val / 512, ht⟩ (1 : Fin 2) * 2048 ≤ (i 1).val
      ∧ (i 1).val < win0_2.index ⟨(i 0).val / 512, ht⟩ (1 : Fin 2) * 2048 + 2048
    omega

/-- After the run the result array is the memory unit's result of the argument arrays. -/
theorem final (c : Dev nD) :
    (dats m 0 c).arrAt 2 cfg0.N
      = out (m ((c : Thread nD τ).loc main_arg0)) (m ((c : Thread nD τ).loc main_arg1)) :=
  (dats m 0 c).arrAt_eq_of_cover 2 _ (fun t _ => flushed_eq m c t) covered

/-- The kernel's run: it terminates with the result array at the memory unit's result of the arguments,
    and the arguments as they were. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.lean ====
/-
  A memory unit: 32768 feature rows, each re-expressed through a bank of twenty memory slots.

  Both programs compute, for every row `x_r` of the input and with `B` the `20 × 2048` bank,

      tanh( softmax( shrink( softmax( x_r · Bᵀ ) ) ) · B ),

  where the softmax runs over the twenty slots (subtract the greatest score, exponentiate, divide by the
  sum) and the shrink moves each weight towards zero by a fixed threshold, leaving zero in between.
  `Cert.MemoryUnit.out` (Proof/Spec.lean) is this function on the extended reals.

  The kernel works on 64 blocks of 512 rows. Inside a block it narrows the operands of its two matrix
  products to sixteen bits, which is the identity on the extended reals, and it contracts the feature
  axis of the untransposed bank where the reference first transposes the bank; both are the same sum
  of products. Its reductions along the slots and the reference's are the same fold of `max` from −∞
  and the same sum from a zero that adds nothing. The threshold, its negative and the zero are the
  same binary words on both sides and are never evaluated. Every stage treats each row by itself, so a
  block's result is the memory unit's result on the block's rows (Proof/BodyIsSpec.lean), the 64 blocks
  fill the array (Proof/ArrayValue.lean), and the reference read one operation at a time is the same
  function (Proof/RefIsSpec.lean). No law used here needs the inputs to be finite: the two sides are
  one composition of the same operations, and sums of extended reals may be taken in any order.

  The three frames are the programs' runs with the results forgotten; the idealized kernel is the
  kernel's own text read on the extended reals, so there is nothing to preserve.
-/
import proofs.«129521_j57990648430879_1_alg».proof.Defs
import proofs.«129521_j57990648430879_1_alg».proof.Proof.Gen.Kernel
import proofs.«129521_j57990648430879_1_alg».proof.Proof.Gen.Kernel.Skeleton
import proofs.«129521_j57990648430879_1_alg».proof.Proof.Gen.Kernel.Launch
import proofs.«129521_j57990648430879_1_alg».proof.Proof.Gen.Kernel.Points
import proofs.«129521_j57990648430879_1_alg».proof.Proof.Gen.Kernel.Frame
import proofs.«129521_j57990648430879_1_alg».proof.Proof.Gen.KernelIdeal
import proofs.«129521_j57990648430879_1_alg».proof.Proof.Gen.KernelIdeal.Skeleton
import proofs.«129521_j57990648430879_1_alg».proof.Proof.Gen.KernelIdeal.Launch
import proofs.«129521_j57990648430879_1_alg».proof.Proof.Gen.KernelIdeal.Points
import proofs.«129521_j57990648430879_1_alg».proof.Proof.Gen.KernelIdeal.Frame
import proofs.«129521_j57990648430879_1_alg».proof.Proof.Gen.ReferenceIdeal
import proofs.«129521_j57990648430879_1_alg».proof.Proof.Gen.Pre_finite_inputs
import proofs.«129521_j57990648430879_1_alg».proof.Proof.Gen.KernelIdeal.Value
import proofs.«129521_j57990648430879_1_alg».proof.Proof.Gen.ReferenceIdeal.Run
import proofs.«129521_j57990648430879_1_alg».proof.Proof.Gen.ReferenceIdeal.Read
import proofs.«129521_j57990648430879_1_alg».proof.Proof.Spec
import proofs.«129521_j57990648430879_1_alg».proof.Proof.RefIsSpec
import proofs.«129521_j57990648430879_1_alg».proof.Proof.BodyIsSpec
import proofs.«129521_j57990648430879_1_alg».proof.Proof.ArrayValue
import Idealize.ShloMosaic.Adequacy
import Idealize.ShloMosaic.Init

noncomputable section

namespace Cert.Proof

open Idealize.ShloMosaic Idealize.SL.Sem Cert.Kernel

/-- The kernel as printed runs, and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it computes forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array and the reference's are both the memory unit's result of
    the argument arrays, which agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
